-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100000x3 : S_.BroadcastsInDim S100000x3 (![] : Fin 0 → Fin S100000x3.rank)
  reducesTo_S100000x3_S_d0_1 : S100000x3.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S259x128 1) : IVec S_ 1 :=
  let main_c_5 : IVec S_ 1 := constantI S_ 1 1#1
  let main_v17 : IVec S_ 1 := (fun x v => Host.reduce IntOp.andi x v reducesTo_S259x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S1600000x128 .f32) (main_arg3 : FVec F S100000x3 .f32) (main_arg4 : FVec F S259x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100000x3 .f32 := Host.absf main_arg3
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S259x128 .f32 := Host.absf main_arg4
  let main_cst_4 : FVec F S_ .f32 := constant S_ .f32 0x7F800000#32
  let main_v15 : FVec F S259x128 .f32 := broadcastInDim S259x128 ![] bcast_S_S259x128 main_cst_4
  let main_v16 : IVec S259x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S3x128 : Shape := ⟨2, ![3, 128]⟩
abbrev S2000x128 : Shape := ⟨2, ![2000, 128]⟩
abbrev S2000x3 : Shape := ⟨2, ![2000, 3]⟩
abbrev S1x128 : Shape := ⟨2, ![1, 128]⟩

abbrev nBuf : Space → Nat
  | .hbm => 20
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000x3, .f32⟩
  | .hbm, ⟨4, _⟩ => ⟨S259x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S128x128, .f32⟩
  | .hbm, ⟨17, _⟩ => ⟨S128x128, .f32⟩
  | .hbm, ⟨18, _⟩ => ⟨S3x128, .f32⟩
  | .hbm, ⟨19, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x3, .f32⟩
  | .local _ .vmem, ⟨5, _⟩ => ⟨S2000x3, .f32⟩
  | .local _ .vmem, ⟨6, _⟩ => ⟨S128x128, .f32⟩
  | .local _ .vmem, ⟨7, _⟩ => ⟨S128x128, .f32⟩
  | .local _ .vmem, ⟨8, _⟩ => ⟨S3x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  slices_S259x128_S128x128_0_0 : S259x128.Slices ![0, 0] S128x128
  slices_S259x128_S128x128_128_0 : S259x128.Slices ![128, 0] S128x128
  slices_S259x128_S3x128_256_0 : S259x128.Slices ![256, 0] S3x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S2000x3_S2000x3_0_0 : ∀ a, (![0, 0] : Fin 2 → Nat) a + S2000x3.size a ≤ S2000x3.size a
  h_S2000x3 : 0 < S2000x3.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x3_S3x128_S2000x128_1_0_0_1_n_n_wf : DotDims.WF S2000x3 S3x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x259 : Shape := ⟨2, ![100000, 259]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000x3, .f32⟩
  | .hbm, ⟨4, _⟩ => ⟨S259x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S100000x259, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  concatenates_S100000x128_S100000x128_S100000x3_S100000x259_d1 : Shape.Concatenates [S100000x128, S100000x128, S100000x3] S100000x259 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x259_S259x128_S100000x128_1_0_0_1_n_n_wf : DotDims.WF S100000x259 S259x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x259_S259x128_S100000x128_1_0_0_1_n_n : DotDims S100000x259 S259x128 S100000x128 where
  lhsContracting := [1]
  rhsContracting := [0]
  lhsNonContracting := [0]
  rhsNonContracting := [1]
  lhsBatch := []
  rhsBatch := []
  wf := dot_S100000x259_S259x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, on the extended reals.

  A node's feature row is the concatenation [x | agg | f] of 128 + 128 + 3 entries; three dense layers follow, the
  first two through silu, z ↦ z · 1/(1 + e^(-z)):
      h1 = silu ([x | agg | f] · W0 + b0),   h2 = silu (h1 · W1 + b1),   out = h2 · W2 + b2.
  One program multiplies the concatenated row by the whole of W0; the other adds up three partial products against the
  row blocks W0[0:128], W0[128:256], W0[256:259]. The two agree because a sum over 259 indices is the sum of its three
  consecutive stretches: only commutativity and associativity of + are used, so no entry need be finite.
-/
import Idealize.ShloMosaic.PureOps.Ideal
import Idealize.ShloMosaic.Lib.ValueIdx

noncomputable section

namespace Cert.NodeMlp

open Idealize.ShloMosaic Idealize.ShloMosaic.ValueIdx

/-- An [a, b] array and an [a] array of extended reals. -/
abbrev Mat (a b : Nat) : Type := (⟨2, ![a, b]⟩ : Shape).Idx → EReal
abbrev Vct (a : Nat) : Type := (⟨1, ![a]⟩ : Shape).Idx → EReal

/-- silu: z · 1/(1 + e^(-z)). -/
def silu (z : EReal) : EReal := z * Ideal.logistic z

/-- The first layer before its activation, as three partial products: entry j of x · Wx + agg · Wa + f · Wf + b. -/
def hidden0 (xr ar : Fin 128 → EReal) (fr : Fin 3 → EReal) (wx wa : Fin 128 → Fin 128 → EReal)
    (wf : Fin 3 → Fin 128 → EReal) (b : Fin 128 → EReal) (j : Fin 128) : EReal :=
  ((∑ k : Fin 128, xr k * wx k j) + (∑ k : Fin 128, ar k * wa k j)) + (∑ k : Fin 3, fr k * wf k j) + b j

/-- A dense layer on a row of 128: entry j of h · W + b. -/
def dense (h : Fin 128 → EReal) (w : Fin 128 → Fin 128 → EReal) (b : Fin 128 → EReal) (j : Fin 128) : EReal :=
  (∑ k : Fin 128, h k * w k j) + b j

/-- One node's output row, entry j. -/
def rowOut (xr ar : Fin 128 → EReal) (fr : Fin 3 → EReal) (wx wa : Fin 128 → Fin 128 → EReal)
    (wf : Fin 3 → Fin 128 → EReal) (b0 : Fin 128 → EReal) (w1 : Fin 128 → Fin 128 → EReal) (b1 : Fin 128 → EReal)
    (w2 : Fin 128 → Fin 128 → EReal) (b2 : Fin 128 → EReal) (j : Fin 128) : EReal :=
  dense (fun k => silu (dense (fun k' => silu (hidden0 xr ar fr wx wa wf b0 k')) w1 b1 k)) w2 b2 j

/-- The whole result: row i of the output from row i of x, agg and f, the three row blocks of W0 taken at offsets 0, 128
    and 256. -/
def G (x agg : Mat 100000 128) (f : Mat 100000 3) (W0 : Mat 259 128) (b0 : Vct 128) (W1 : Mat 128 128) (b1 : Vct 128)
    (W2 : Mat 128 128) (b2 : Vct 128) : Mat 100000 128 := fun i =>
  rowOut (fun k => x (ix2 (i 0) k)) (fun k => agg (ix2 (i 0) k)) (fun k => f (ix2 (i 0) k))
    (fun k j => W0 (ix2 (⟨k.val, by have := k.isLt; omega⟩ : Fin 259) j))
    (fun k j => W0 (ix2 (⟨128 + k.val, by have := k.isLt; omega⟩ : Fin 259) j))
    (fun k j => W0 (ix2 (⟨256 + k.val, by have := k.isLt; omega⟩ : Fin 259) j))
    (fun j => b0 (ix1 j)) (fun k j => W1 (ix2 k j)) (fun j => b1 (ix1 j)) (fun k j => W2 (ix2 k j)) (fun j => b2 (ix1 j)) (i 1)

/-- A sum over 259 indices is the sum of its stretches [0, 128), [128, 256) and [256, 259). -/
theorem sum_split259 {M : Type*} [AddCommMonoid M] (g : Fin 259 → M) :
    ∑ k : Fin 259, g k
      = ((∑ k : Fin 128, g ⟨k.val, by have := k.isLt; omega⟩) + (∑ k : Fin 128, g ⟨128 + k.val, by have := k.isLt; omega⟩))
        + ∑ k : Fin 3, g ⟨256 + k.val, by have := k.isLt; omega⟩ := by
  have h1 := Fin.sum_univ_add (a := 256) (b := 3) (fun k : Fin (256 + 3) => g ⟨k.val, k.isLt⟩)
  have h2 := Fin.sum_univ_add (a := 128) (b := 128) (fun k : Fin (128 + 128) => g ⟨k.val, by have := k.isLt; omega⟩)
  refine h1.trans ?_
  refine congrArg₂ (· + ·) (h2.trans ?_) ?_
  · rfl
  · rfl

/-- The host's spelling of the logistic function, 1 / (1 + e^(-z)) with the host's quotient, exponential and negation, is the
    same function. -/
theorem host_logistic (z : EReal) : Ideal.div 1 (1 + Ideal.exp (-z)) = Ideal.logistic z := rfl

end Cert.NodeMlp

end
-- ==== Proof.Payload.lean ====
/-
  What the kernel's body stores for one block of 2000 nodes, read one entry at a time.

  The body holds a block of 2000 rows of x, of the aggregate and of f, and the weights whole. Its stored value at row p,
  column q is the output row of node p of the block (Spec.lean's rowOut): each matrix product into a zero accumulator
  is the plain sum over the contracted index; narrowing to bf16 does nothing to an extended real; a bias of 128 entries
  re-laid as one row and repeated down the block reads its entry q; x · logistic x is silu.
-/
import proofs.«139721_j17910013624369_1_alg».proof.Proof.Gen.KernelIdeal.Skeleton
import proofs.«139721_j17910013624369_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.NodeMlp

/-! ## The two matrix products at an entry -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] by [128, 128] product into zero, at (p, q): the sum over k of a(p, k) · b(k, q). -/
theorem mm128_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  show FloatOps.matmul _ _ _ _ _ _ = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2000x128.Idx) (q : dot_S2000x3_S3x128_S2000x128_1_0_0_1_n_n.contr.Idx) :
    (dot_S2000x3_S3x128_S2000x128_1_0_0_1_n_n.lhsIdx i q 0).val = (i 0).val := by
  unfold DotDims.lhsIdx
  rw [dif_neg (show ¬(0 : Fin S2000x3.rank) ∈ dot_S2000x3_S3x128_S2000x128_1_0_0_1_n_n.lhsBatch by decide), dif_pos (show (0 : Fin S2000x3.rank) ∈ dot_S2000x3_S3x128_S2000x128_1_0_0_1_n_n.lhsNonContracting by decide)]
  rfl
theorem lhsB_1 (i : S2000x128.Idx) (q : dot_S2000x3_S3x128_S2000x128_1_0_0_1_n_n.contr.Idx) :
    (dot_S2000x3_S3x128_S2000x128_1_0_0_1_n_n.lhsIdx i q 1).val = (q ⟨0, by decide⟩).val :=
  dot_S2000x3_S3x128_S2000x128_1_0_0_1_n_n.lhsIdx_val_of_single rfl i q
theorem rhsB_0 (i : S2000x128.Idx) (q : dot_S2000x3_S3x128_S2000x128_1_0_0_1_n_n.contr.Idx) :
    (dot_S2000x3_S3x128_S2000x128_1_0_0_1_n_n.rhsIdx i q 0).val = (q ⟨0, by decide⟩).val :=
  dot_S2000x3_S3x128_S2000x128_1_0_0_1_n_n.rhsIdx_val_of_single rfl i q
theorem rhsB_1 (i : S2000x128.Idx) (q : dot_S2000x3_S3x128_S2000x128_1_0_0_1_n_n.contr.Idx) :
    (dot_S2000x3_S3x128_S2000x128_1_0_0_1_n_n.rhsIdx i q 1).val = (i 1).val := by
  unfold DotDims.rhsIdx
  rw [dif_neg (show ¬(1 : Fin S3x128.rank) ∈ dot_S2000x3_S3x128_S2000x128_1_0_0_1_n_n.rhsBatch by decide), dif_pos (show (1 : Fin S3x128.rank) ∈ dot_S2000x3_S3x128_S2000x128_1_0_0_1_n_n.rhsNonContracting by decide)]
  rfl

/-- A [2000, 3] by [3, 128] product into zero, at (p, q): the sum over the three k of a(p, k) · b(k, q). -/
theorem mm3_apply {φ₁ φ₂ : FTy} (a : FVec Ideal S2000x3 φ₁) (b : FVec Ideal S3x128 φ₂) (p : Fin 2000) (q : Fin 128) :
    matmul dot_S2000x3_S3x128_S2000x128_1_0_0_1_n_n none a b (constant S2000x128 .f32 0x00000000#32) (ix2 p q)
      = ∑ k : Fin 3, a (ix2 p k) * b (ix2 k q) := by
  show FloatOps.matmul _ _ _ _ _ _ = _
  rw [Ideal.matmul_constant_zero_apply, ← Equiv.sum_comp (ValueIdx.contrEquiv1 dot_S2000x3_S3x128_S2000x128_1_0_0_1_n_n 3 rfl rfl).symm]
  refine Finset.sum_congr rfl fun k _ => ?_
  have hk := ValueIdx.contrEquiv1_symm_val dot_S2000x3_S3x128_S2000x128_1_0_0_1_n_n 3 rfl rfl k
  have el : dot_S2000x3_S3x128_S2000x128_1_0_0_1_n_n.lhsIdx (ix2 p q) ((ValueIdx.contrEquiv1 dot_S2000x3_S3x128_S2000x128_1_0_0_1_n_n 3 rfl rfl).symm k) = ix2 p k := funext fun a => Fin.ext (by
    match a with
    | ⟨0, _⟩ => exact lhsB_0 _ _
    | ⟨1, _⟩ => exact (lhsB_1 _ _).trans hk)
  have er : dot_S2000x3_S3x128_S2000x128_1_0_0_1_n_n.rhsIdx (ix2 p q) ((ValueIdx.contrEquiv1 dot_S2000x3_S3x128_S2000x128_1_0_0_1_n_n 3 rfl rfl).symm k) = ix2 k q := funext fun a => Fin.ext (by
    match a with
    | ⟨0, _⟩ => exact (rhsB_0 _ _).trans hk
    | ⟨1, _⟩ => exact rhsB_1 _ _)
  rw [el, er]

/-! ## A bias, a layer, the first layer -/

/-- 128 entries re-laid as one row and repeated down 2000 rows: entry (p, q) is entry q. -/
theorem bias_apply (b : FVec Ideal S128 .f32) (h1 : S128.ShapeCasts S1x128) (h2 : S1x128.Broadcasts S2000x128) (p : Fin 2000) (q : Fin 128) :
    broadcastTo S2000x128 (shapeCast S1x128 b h1) h2 (ix2 p q) = b (ix1 q) := by
  rw [broadcastTo_1b_ab_apply, shapeCast_a_1a_apply]

/-- One dense layer of the body on a block, at (p, q). -/
theorem dense_apply (h : FVec Ideal S2000x128 .f32) (w : FVec Ideal S128x128 .f32) (b : FVec Ideal S128 .f32)
    (ht : FTy.bf16.bits < FTy.f32.bits) (h1 : S128.ShapeCasts S1x128) (h2 : S1x128.Broadcasts S2000x128) (p : Fin 2000) (q : Fin 128) :
    addf (matmul dot_S2000x128_S128x128_S2000x128_1_0_0_1_n_n none (truncf .bf16 h ht) (truncf .bf16 w ht) (constant S2000x128 .f32 0x00000000#32))
        (broadcastTo S2000x128 (shapeCast S1x128 b h1) h2) (ix2 p q)
      = dense (fun k => h (ix2 p k)) (fun k j => w (ix2 k j)) (fun j => b (ix1 j)) q := by
  rw [addf_apply, mm128_apply, bias_apply]
  rfl

/-- The first layer before its activation, at (p, q): the three partial products and the bias. -/
theorem hidden0_apply (v0 v2 : FVec Ideal S2000x128 .f32) (v5 : FVec Ideal S2000x3 .f32) (v7 v10 : FVec Ideal S128x128 .f32)
    (v13 : FVec Ideal S3x128 .f32) (v21 : FVec Ideal S128 .f32)
    (ht : FTy.bf16.bits < FTy.f32.bits) (h1 : S128.ShapeCasts S1x128) (h2 : S1x128.Broadcasts S2000x128) (p : Fin 2000) (q : Fin 128) :
    addf (F := Ideal) (addf (addf (matmul dot_S2000x128_S128x128_S2000x128_1_0_0_1_n_n none (truncf .bf16 v0 ht) (truncf .bf16 v7 ht) (constant S2000x128 .f32 0x00000000#32))
            (matmul dot_S2000x128_S128x128_S2000x128_1_0_0_1_n_n none (truncf .bf16 v2 ht) (truncf .bf16 v10 ht) (constant S2000x128 .f32 0x00000000#32)))
          (matmul dot_S2000x3_S3x128_S2000x128_1_0_0_1_n_n none (truncf .bf16 v5 ht) (truncf .bf16 v13 ht) (constant S2000x128 .f32 0x00000000#32)))
        (broadcastTo S2000x128 (shapeCast S1x128 v21 h1) h2) (ix2 p q)
      = hidden0 (fun k => v0 (ix2 p k)) (fun k => v2 (ix2 p k)) (fun k => v5 (ix2 p k)) (fun k j => v7 (ix2 k j))
          (fun k j => v10 (ix2 k j)) (fun k j => v13 (ix2 k j)) (fun j => v21 (ix1 j)) q := by
  rw [addf_apply, addf_apply, addf_apply, mm128_apply, mm128_apply, mm3_apply, bias_apply]
  rfl

/-! ## The stored value -/

/-- The body's stored value at row p, column q of the block is node p's output row at q. -/
theorem payload_apply (v0 v2 : Vec Ideal S2000x128 .f32) (v5 : Vec Ideal S2000x3 .f32) (v7 v10 : Vec Ideal S128x128 .f32)
    (v13 : Vec Ideal S3x128 .f32) (v21 : Vec Ideal S128 .f32) (v27 : Vec Ideal S128x128 .f32) (v31 : Vec Ideal S128 .f32)
    (v37 : Vec Ideal S128x128 .f32) (v41 : Vec Ideal S128 .f32) (p : Fin 2000) (q : Fin 128) :
    k0_pay1 (F := Ideal) (k0_pay2 v0 v2 v5 v7 v10 v13 v21 v27 v31) v37 v41 (ix2 p q)
      = rowOut (fun k => v0 (ix2 p k)) (fun k => v2 (ix2 p k)) (fun k => v5 (ix2 p k)) (fun k j => v7 (ix2 k j))
          (fun k j => v10 (ix2 k j)) (fun k j => v13 (ix2 k j)) (fun j => v21 (ix1 j)) (fun k j => v27 (ix2 k j))
          (fun j => v31 (ix1 j)) (fun k j => v37 (ix2 k j)) (fun j => v41 (ix1 j)) q := by
  unfold k0_pay1 k0_pay2
  dsimp only
  simp only [shapeCast_self]
  rw [dense_apply]
  unfold rowOut
  refine congrArg (fun h => dense h _ _ q) (funext fun k => ?_)
  refine congrArg silu ?_
  rw [dense_apply]
  refine congrArg (fun h => dense h _ _ k) (funext fun k' => ?_)
  refine congrArg silu ?_
  exact hidden0_apply v0 v2 v5 v7 v10 v13 v21 _ _ _ p k'

end Cert.KernelIdeal.Payload

end
-- ==== Proof.Parts.lean ====
/-
  The same result with the first layer's three weight blocks given as separate arrays, as the kernel receives them, and
  the step back to the whole of W0: the blocks are its rows 0 … 127, 128 … 255 and 256 … 258.
-/
import proofs.«139721_j17910013624369_1_alg».proof.Proof.Spec
import Idealize.ShloMosaic.Lib.ValueLayout
import Idealize.ShloMosaic.Lib.Pipeline.Value

noncomputable section

namespace Cert.NodeMlp

open Idealize.ShloMosaic Idealize.ShloMosaic.ValueIdx

/-- Row i of the output from row i of x, agg and f, with the three blocks of the first layer's weights as arrays of their
    own. -/
def Gparts (x agg : Mat 100000 128) (f : Mat 100000 3) (wx wa : Mat 128 128) (wf : Mat 3 128) (b0 : Vct 128)
    (W1 : Mat 128 128) (b1 : Vct 128) (W2 : Mat 128 128) (b2 : Vct 128) : Mat 100000 128 := fun i =>
  rowOut (fun k => x (ix2 (i 0) k)) (fun k => agg (ix2 (i 0) k)) (fun k => f (ix2 (i 0) k))
    (fun k j => wx (ix2 k j)) (fun k j => wa (ix2 k j)) (fun k j => wf (ix2 k j))
    (fun j => b0 (ix1 j)) (fun k j => W1 (ix2 k j)) (fun j => b1 (ix1 j)) (fun k j => W2 (ix2 k j)) (fun j => b2 (ix1 j)) (i 1)

/-- With the blocks cut out of W0 at rows 0, 128 and 256 this is G. -/
theorem Gparts_of_slices (x agg : Mat 100000 128) (f : Mat 100000 3) (W0 : Mat 259 128) (b0 : Vct 128)
    (W1 : Mat 128 128) (b1 : Vct 128) (W2 : Mat 128 128) (b2 : Vct 128)
    (h0 : (⟨2, ![259, 128]⟩ : Shape).Slices ![0, 0] ⟨2, ![128, 128]⟩)
    (h1 : (⟨2, ![259, 128]⟩ : Shape).Slices ![128, 0] ⟨2, ![128, 128]⟩)
    (h2 : (⟨2, ![259, 128]⟩ : Shape).Slices ![256, 0] ⟨2, ![3, 128]⟩) :
    Gparts x agg f (extractStridedSlice ⟨2, ![128, 128]⟩ ![0, 0] W0 h0) (extractStridedSlice ⟨2, ![128, 128]⟩ ![128, 0] W0 h1)
        (extractStridedSlice ⟨2, ![3, 128]⟩ ![256, 0] W0 h2) b0 W1 b1 W2 b2
      = G x agg f W0 b0 W1 b1 W2 b2 := by
  funext i
  unfold Gparts G
  have e0 : (fun (k : Fin 128) (j : Fin 128) => extractStridedSlice ⟨2, ![128, 128]⟩ ![0, 0] W0 h0 (ix2 k j))
      = fun k j => W0 (ix2 (⟨k.val, by have := k.isLt; omega⟩ : Fin 259) j) :=
    funext fun k => funext fun j => slice2_axis0_apply 0 W0 h0 k j _ (Nat.zero_add _).symm
  have e1 : (fun (k : Fin 128) (j : Fin 128) => extractStridedSlice ⟨2, ![128, 128]⟩ ![128, 0] W0 h1 (ix2 k j))
      = fun k j => W0 (ix2 (⟨128 + k.val, by have := k.isLt; omega⟩ : Fin 259) j) :=
    funext fun k => funext fun j => slice2_axis0_apply 128 W0 h1 k j _ rfl
  have e2 : (fun (k : Fin 3) (j : Fin 128) => extractStridedSlice ⟨2, ![3, 128]⟩ ![256, 0] W0 h2 (ix2 k j))
      = fun k j => W0 (ix2 (⟨256 + k.val, by have := k.isLt; omega⟩ : Fin 259) j) :=
    funext fun k => funext fun j => slice2_axis0_apply 256 W0 h2 k j _ rfl
  rw [e0, e1, e2]

/-- rowOut depends on its eleven arguments only through their values. -/
theorem rowOut_congr {xr xr' ar ar' : Fin 128 → EReal} {fr fr' : Fin 3 → EReal} {wx wx' wa wa' : Fin 128 → Fin 128 → EReal}
    {wf wf' : Fin 3 → Fin 128 → EReal} {b0 b0' : Fin 128 → EReal} {w1 w1' : Fin 128 → Fin 128 → EReal} {b1 b1' : Fin 128 → EReal}
    {w2 w2' : Fin 128 → Fin 128 → EReal} {b2 b2' : Fin 128 → EReal} (q : Fin 128)
    (hx : ∀ k, xr k = xr' k) (ha : ∀ k, ar k = ar' k) (hf : ∀ k, fr k = fr' k) (hwx : ∀ k j, wx k j = wx' k j)
    (hwa : ∀ k j, wa k j = wa' k j) (hwf : ∀ k j, wf k j = wf' k j) (hb0 : ∀ j, b0 j = b0' j) (hw1 : ∀ k j, w1 k j = w1' k j)
    (hb1 : ∀ j, b1 j = b1' j) (hw2 : ∀ k j, w2 k j = w2' k j) (hb2 : ∀ j, b2 j = b2' j) :
    rowOut xr ar fr wx wa wf b0 w1 b1 w2 b2 q = rowOut xr' ar' fr' wx' wa' wf' b0' w1' b1' w2' b2' q := by
  obtain rfl : xr = xr' := funext hx
  obtain rfl : ar = ar' := funext ha
  obtain rfl : fr = fr' := funext hf
  obtain rfl : wx = wx' := funext fun k => funext (hwx k)
  obtain rfl : wa = wa' := funext fun k => funext (hwa k)
  obtain rfl : wf = wf' := funext fun k => funext (hwf k)
  obtain rfl : b0 = b0' := funext hb0
  obtain rfl : w1 = w1' := funext fun k => funext (hw1 k)
  obtain rfl : b1 = b1' := funext hb1
  obtain rfl : w2 = w2' := funext fun k => funext (hw2 k)
  obtain rfl : b2 = b2' := funext hb2
  rfl

end Cert.NodeMlp

end
-- ==== Proof.Blocks.lean ====
/-
  One grid point of the kernel, for ANY contents of the arrays its windows stage.

  The grid has 50 points; point t holds rows 2000·t … 2000·t + 1999 of the three row-blocked inputs and every weight and
  bias whole, and writes back rows 2000·t … 2000·t + 1999 of the result. Row p of a block is row 2000·t + p of its array, so
  the value the body stores (a node's output row, Payload.lean) is, at row p and column q, the whole-array function of
  Parts.lean at row 2000·t + p and column q: what point t writes back is block t of ONE function of the arrays.
-/
import proofs.«139721_j17910013624369_1_alg».proof.Proof.Gen.KernelIdeal.Value
import proofs.«139721_j17910013624369_1_alg».proof.Proof.Payload
import proofs.«139721_j17910013624369_1_alg».proof.Proof.Parts

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.NodeMlp

theorem hz2 : (![0, 0] : Fin 2 → Nat) = fun _ => 0 := funext fun a => by fin_cases a <;> rfl
theorem hz1 : (![0] : Fin 1 → Nat) = fun _ => 0 := funext fun a => by fin_cases a; rfl

/-! ## The body's stored block as the payload of its loaded blocks -/

theorem out_eq (x0 x1 : Vec Ideal S2000x128 .f32) (x2 : Vec Ideal S2000x3 .f32) (x3 x4 : Vec Ideal S128x128 .f32)
    (x5 : Vec Ideal S3x128 .f32) (x6 : Vec Ideal S128 .f32) (x7 : Vec Ideal S128x128 .f32) (x8 : Vec Ideal S128 .f32)
    (x9 : Vec Ideal S128x128 .f32) (x10 : Vec Ideal S128 .f32) :
    out0_11 x0 x1 x2 x3 x4 x5 x6 x7 x8 x9 x10 = k0_pay1 (k0_pay2 x0 x1 x2 x3 x4 x5 x6 x7 x8) x9 x10 := by
  unfold out0_11
  rw [View.canon_unit_zero hz2]
  simp only [View.ld_unit_zero (S := S2000x128) hz2, View.ld_unit_zero (S := S2000x3) hz2, View.ld_unit_zero (S := S128x128) hz2,
    View.ld_unit_zero (S := S3x128) hz2, View.ld_unit_zero (S := S128) hz1]

/-! ## The index maps over the grid -/

/-- The three row-blocked inputs and the output move with the point along the rows; every weight and bias stays put. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## Each window's block of an array, read at an entry

  Stated for ANY contents of the window's array: row p of the block at point t is row 2000·t + p of the array for the three
  row-blocked inputs, and the block is the whole array for every weight and bias. -/

section Reads
variable (c : Dev nD) (t : Fin cfg0.N)

theorem read_rows0 (A : Buf (Elt Ideal) ((c : Thread nD τ).loc (Pipeline.arrRef spec0 0))) (p : Fin 2000) (k : Fin 128)
    (r : Fin 100000) (hr : r.val = t.val * 2000 + p.val) :
    ((cfg0.win 0).blk t).view.read (Elt Ideal) A (ix2 p k) = A (ix2 r k) := by
  rw [View.read_apply, cast_eq]
  refine congrArg A (funext fun a => Fin.ext ?_)
  obtain ⟨e0, e1⟩ := idx0 t
  match a with
  | ⟨0, _⟩ =>
    show win0_0.index t (0 : Fin 2) * 2000 + 1 * p.val = r.val
    rw [e0, hr, Nat.one_mul]
  | ⟨1, _⟩ =>
    show win0_0.index t (1 : Fin 2) * 128 + 1 * k.val = k.val
    rw [e1, Nat.zero_mul, Nat.zero_add, Nat.one_mul]

theorem read_rows1 (A : Buf (Elt Ideal) ((c : Thread nD τ).loc (Pipeline.arrRef spec0 1))) (p : Fin 2000) (k : Fin 128)
    (r : Fin 100000) (hr : r.val = t.val * 2000 + p.val) :
    ((cfg0.win 1).blk t).view.read (Elt Ideal) A (ix2 p k) = A (ix2 r k) := by
  rw [View.read_apply, cast_eq]
  refine congrArg A (funext fun a => Fin.ext ?_)
  obtain ⟨e0, e1⟩ := idx1 t
  match a with
  | ⟨0, _⟩ =>
    show win0_1.index t (0 : Fin 2) * 2000 + 1 * p.val = r.val
    rw [e0, hr, Nat.one_mul]
  | ⟨1, _⟩ =>
    show win0_1.index t (1 : Fin 2) * 128 + 1 * k.val = k.val
    rw [e1, Nat.zero_mul, Nat.zero_add, Nat.one_mul]

theorem read_rows2 (A : Buf (Elt Ideal) ((c : Thread nD τ).loc (Pipeline.arrRef spec0 2))) (p : Fin 2000) (k : Fin 3)
    (r : Fin 100000) (hr : r.val = t.val * 2000 + p.val) :
    ((cfg0.win 2).blk t).view.read (Elt Ideal) A (ix2 p k) = A (ix2 r k) := by
  rw [View.read_apply, cast_eq]
  refine congrArg A (funext fun a => Fin.ext ?_)
  obtain ⟨e0, e1⟩ := idx2 t
  match a with
  | ⟨0, _⟩ =>
    show win0_2.index t (0 : Fin 2) * 2000 + 1 * p.val = r.val
    rw [e0, hr, Nat.one_mul]
  | ⟨1, _⟩ =>
    show win0_2.index t (1 : Fin 2) * 3 + 1 * k.val = k.val
    rw [e1, Nat.zero_mul, Nat.zero_add, Nat.one_mul]

theorem read_whole3 (A : Buf (Elt Ideal) ((c : Thread nD τ).loc (Pipeline.arrRef spec0 3))) (k : Fin 128) (j : Fin 128) :
    ((cfg0.win 3).blk t).view.read (Elt Ideal) A (ix2 k j) = A (ix2 k j) := by
  rw [View.read_apply, cast_eq]
  refine congrArg A (funext fun a => Fin.ext ?_)
  obtain ⟨e0, e1⟩ := idx3 t
  match a with
  | ⟨0, _⟩ =>
    show win0_3.index t (0 : Fin 2) * 128 + 1 * k.val = k.val
    rw [e0, Nat.zero_mul, Nat.zero_add, Nat.one_mul]
  | ⟨1, _⟩ =>
    show win0_3.index t (1 : Fin 2) * 128 + 1 * j.val = j.val
    rw [e1, Nat.zero_mul, Nat.zero_add, Nat.one_mul]

theorem read_whole4 (A : Buf (Elt Ideal) ((c : Thread nD τ).loc (Pipeline.arrRef spec0 4))) (k : Fin 128) (j : Fin 128) :
    ((cfg0.win 4).blk t).view.read (Elt Ideal) A (ix2 k j) = A (ix2 k j) := by
  rw [View.read_apply, cast_eq]
  refine congrArg A (funext fun a => Fin.ext ?_)
  obtain ⟨e0, e1⟩ := idx4 t
  match a with
  | ⟨0, _⟩ =>
    show win0_4.index t (0 : Fin 2) * 128 + 1 * k.val = k.val
    rw [e0, Nat.zero_mul, Nat.zero_add, Nat.one_mul]
  | ⟨1, _⟩ =>
    show win0_4.index t (1 : Fin 2) * 128 + 1 * j.val = j.val
    rw [e1, Nat.zero_mul, Nat.zero_add, Nat.one_mul]

theorem read_whole5 (A : Buf (Elt Ideal) ((c : Thread nD τ).loc (Pipeline.arrRef spec0 5))) (k : Fin 3) (j : Fin 128) :
    ((cfg0.win 5).blk t).view.read (Elt Ideal) A (ix2 k j) = A (ix2 k j) := by
  rw [View.read_apply, cast_eq]
  refine congrArg A (funext fun a => Fin.ext ?_)
  obtain ⟨e0, e1⟩ := idx5 t
  match a with
  | ⟨0, _⟩ =>
    show win0_5.index t (0 : Fin 2) * 3 + 1 * k.val = k.val
    rw [e0, Nat.zero_mul, Nat.zero_add, Nat.one_mul]
  | ⟨1, _⟩ =>
    show win0_5.index t (1 : Fin 2) * 128 + 1 * j.val = j.val
    rw [e1, Nat.zero_mul, Nat.zero_add, Nat.one_mul]

theorem read_whole6 (A : Buf (Elt Ideal) ((c : Thread nD τ).loc (Pipeline.arrRef spec0 6))) (j : Fin 128) :
    ((cfg0.win 6).blk t).view.read (Elt Ideal) A (ix1 j) = A (ix1 j) := by
  rw [View.read_apply, cast_eq]
  refine congrArg A (funext fun a => Fin.ext ?_)
  have e0 := idx6 t
  match a with
  | ⟨0, _⟩ =>
    show win0_6.index t (0 : Fin 1) * 128 + 1 * j.val = j.val
    rw [e0, Nat.zero_mul, Nat.zero_add, Nat.one_mul]

theorem read_whole7 (A : Buf (Elt Ideal) ((c : Thread nD τ).loc (Pipeline.arrRef spec0 7))) (k : Fin 128) (j : Fin 128) :
    ((cfg0.win 7).blk t).view.read (Elt Ideal) A (ix2 k j) = A (ix2 k j) := by
  rw [View.read_apply, cast_eq]
  refine congrArg A (funext fun a => Fin.ext ?_)
  obtain ⟨e0, e1⟩ := idx7 t
  match a with
  | ⟨0, _⟩ =>
    show win0_7.index t (0 : Fin 2) * 128 + 1 * k.val = k.val
    rw [e0, Nat.zero_mul, Nat.zero_add, Nat.one_mul]
  | ⟨1, _⟩ =>
    show win0_7.index t (1 : Fin 2) * 128 + 1 * j.val = j.val
    rw [e1, Nat.zero_mul, Nat.zero_add, Nat.one_mul]

theorem read_whole8 (A : Buf (Elt Ideal) ((c : Thread nD τ).loc (Pipeline.arrRef spec0 8))) (j : Fin 128) :
    ((cfg0.win 8).blk t).view.read (Elt Ideal) A (ix1 j) = A (ix1 j) := by
  rw [View.read_apply, cast_eq]
  refine congrArg A (funext fun a => Fin.ext ?_)
  have e0 := idx8 t
  match a with
  | ⟨0, _⟩ =>
    show win0_8.index t (0 : Fin 1) * 128 + 1 * j.val = j.val
    rw [e0, Nat.zero_mul, Nat.zero_add, Nat.one_mul]

theorem read_whole9 (A : Buf (Elt Ideal) ((c : Thread nD τ).loc (Pipeline.arrRef spec0 9))) (k : Fin 128) (j : Fin 128) :
    ((cfg0.win 9).blk t).view.read (Elt Ideal) A (ix2 k j) = A (ix2 k j) := by
  rw [View.read_apply, cast_eq]
  refine congrArg A (funext fun a => Fin.ext ?_)
  obtain ⟨e0, e1⟩ := idx9 t
  match a with
  | ⟨0, _⟩ =>
    show win0_9.index t (0 : Fin 2) * 128 + 1 * k.val = k.val
    rw [e0, Nat.zero_mul, Nat.zero_add, Nat.one_mul]
  | ⟨1, _⟩ =>
    show win0_9.index t (1 : Fin 2) * 128 + 1 * j.val = j.val
    rw [e1, Nat.zero_mul, Nat.zero_add, Nat.one_mul]

theorem read_whole10 (A : Buf (Elt Ideal) ((c : Thread nD τ).loc (Pipeline.arrRef spec0 10))) (j : Fin 128) :
    ((cfg0.win 10).blk t).view.read (Elt Ideal) A (ix1 j) = A (ix1 j) := by
  rw [View.read_apply, cast_eq]
  refine congrArg A (funext fun a => Fin.ext ?_)
  have e0 := idx10 t
  match a with
  | ⟨0, _⟩ =>
    show win0_10.index t (0 : Fin 1) * 128 + 1 * j.val = j.val
    rw [e0, Nat.zero_mul, Nat.zero_add, Nat.one_mul]

/-- Entry (p, q) of the output's block at point t sits at row 2000·t + p, column q of the array. -/
theorem emb11 (p : Fin 2000) (q : Fin 128) (r : Fin 100000) (hr : r.val = t.val * 2000 + p.val) :
    ((cfg0.win 11).blk t).view.emb (ix2 p q) = ix2 r q := by
  refine funext fun a => Fin.ext ?_
  obtain ⟨e0, e1⟩ := idx11 t
  match a with
  | ⟨0, _⟩ =>
    show win0_11.index t (0 : Fin 2) * 2000 + 1 * p.val = r.val
    rw [e0, hr, Nat.one_mul]
  | ⟨1, _⟩ =>
    show win0_11.index t (1 : Fin 2) * 128 + 1 * q.val = q.val
    rw [e1, Nat.zero_mul, Nat.zero_add, Nat.one_mul]

end Reads

/-! ## What the body stores, for any contents of the arrays -/

/-- For ANY contents of the eleven input arrays: the value the body stores at row p, column q for point t is the
    whole-array function of those contents at row 2000·t + p, column q. -/
theorem stored_at (c : Dev nD) (t : Fin cfg0.N) (A0 : Buf (Elt Ideal) ((c : Thread nD τ).loc (Pipeline.arrRef spec0 0))) (A1 : Buf (Elt Ideal) ((c : Thread nD τ).loc (Pipeline.arrRef spec0 1))) (A2 : Buf (Elt Ideal) ((c : Thread nD τ).loc (Pipeline.arrRef spec0 2))) (A3 : Buf (Elt Ideal) ((c : Thread nD τ).loc (Pipeline.arrRef spec0 3))) (A4 : Buf (Elt Ideal) ((c : Thread nD τ).loc (Pipeline.arrRef spec0 4))) (A5 : Buf (Elt Ideal) ((c : Thread nD τ).loc (Pipeline.arrRef spec0 5))) (A6 : Buf (Elt Ideal) ((c : Thread nD τ).loc (Pipeline.arrRef spec0 6))) (A7 : Buf (Elt Ideal) ((c : Thread nD τ).loc (Pipeline.arrRef spec0 7))) (A8 : Buf (Elt Ideal) ((c : Thread nD τ).loc (Pipeline.arrRef spec0 8))) (A9 : Buf (Elt Ideal) ((c : Thread nD τ).loc (Pipeline.arrRef spec0 9))) (A10 : Buf (Elt Ideal) ((c : Thread nD τ).loc (Pipeline.arrRef spec0 10)))
    (p : Fin 2000) (q : Fin 128) (r : Fin 100000) (hr : r.val = t.val * 2000 + p.val) :
    k0_pay1 (F := Ideal) (k0_pay2 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8)) (((cfg0.win 9).blk t).view.read (Elt Ideal) A9) (((cfg0.win 10).blk t).view.read (Elt Ideal) A10) (ix2 p q)
      = Gparts A0 A1 A2 A3 A4 A5 A6 A7 A8 A9 A10 (ix2 r q) := by
  refine (Payload.payload_apply (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) p q).trans ?_
  exact rowOut_congr q (fun k => read_rows0 c t A0 p k r hr) (fun k => read_rows1 c t A1 p k r hr)
    (fun k => read_rows2 c t A2 p k r hr) (fun k j => read_whole3 c t A3 k j) (fun k j => read_whole4 c t A4 k j)
    (fun k j => read_whole5 c t A5 k j) (fun j => read_whole6 c t A6 j) (fun k j => read_whole7 c t A7 k j)
    (fun j => read_whole8 c t A8 j) (fun k j => read_whole9 c t A9 k j) (fun j => read_whole10 c t A10 j)

/-- So what point t writes back is block t of that function. -/
theorem flushed_core (c : Dev nD) (t : Fin cfg0.N) (A0 : Buf (Elt Ideal) ((c : Thread nD τ).loc (Pipeline.arrRef spec0 0))) (A1 : Buf (Elt Ideal) ((c : Thread nD τ).loc (Pipeline.arrRef spec0 1))) (A2 : Buf (Elt Ideal) ((c : Thread nD τ).loc (Pipeline.arrRef spec0 2))) (A3 : Buf (Elt Ideal) ((c : Thread nD τ).loc (Pipeline.arrRef spec0 3))) (A4 : Buf (Elt Ideal) ((c : Thread nD τ).loc (Pipeline.arrRef spec0 4))) (A5 : Buf (Elt Ideal) ((c : Thread nD τ).loc (Pipeline.arrRef spec0 5))) (A6 : Buf (Elt Ideal) ((c : Thread nD τ).loc (Pipeline.arrRef spec0 6))) (A7 : Buf (Elt Ideal) ((c : Thread nD τ).loc (Pipeline.arrRef spec0 7))) (A8 : Buf (Elt Ideal) ((c : Thread nD τ).loc (Pipeline.arrRef spec0 8))) (A9 : Buf (Elt Ideal) ((c : Thread nD τ).loc (Pipeline.arrRef spec0 9))) (A10 : Buf (Elt Ideal) ((c : Thread nD τ).loc (Pipeline.arrRef spec0 10))) :
    (cfg0.win 11).cut (grid0.coords t) (k0_pay1 (F := Ideal) (k0_pay2 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8)) (((cfg0.win 9).blk t).view.read (Elt Ideal) A9) (((cfg0.win 10).blk t).view.read (Elt Ideal) A10))
      = ((cfg0.win 11).blk t).view.read (Elt Ideal) (Gparts A0 A1 A2 A3 A4 A5 A6 A7 A8 A9 A10) := by
  funext y
  rw [View.read_apply, cast_eq]
  obtain ⟨p, q, rfl⟩ : ∃ (p : Fin 2000) (q : Fin 128), y = ix2 p q := ⟨y 0, y 1, eq_ix2 y⟩
  have ht : t.val < 50 := t.isLt
  have hp : p.val < 2000 := p.isLt
  rw [emb11 t p q ⟨t.val * 2000 + p.val, by omega⟩ rfl]
  exact stored_at c t A0 A1 A2 A3 A4 A5 A6 A7 A8 A9 A10 p q ⟨t.val * 2000 + p.val, by omega⟩ rfl

end Cert.KernelIdeal.Blocks

end
-- ==== Proof.KernelValue.lean ====
/-
  The kernel's result array after its run is the function G of Spec.lean.

  Every point of the grid writes back its block of ONE whole-array function of the arrays the region finds (Blocks.lean);
  the 50 blocks of 2000 rows cover the 100000 rows, so the array ends holding that function. Of those arrays, seven are
  arguments as launched; the aggregate is what the scatter-add before the call left, kept as one term; the three blocks of
  the first layer's weights are the slices of W0 at rows 0, 128 and 256, which turns the function into G.
-/
import proofs.«139721_j17910013624369_1_alg».proof.Proof.Blocks
import Idealize.ShloMosaic.Lib.StableHlo.Run

set_option maxRecDepth 16384

noncomputable section

namespace Cert.KernelIdeal.KernelValue

open Cert.KernelIdeal Cert.KernelIdeal.Gen Cert.KernelIdeal.Blocks Idealize.ShloMosaic Idealize.ShloMosaic.TcCoe Idealize.SL.Sem
open Idealize.ShloMosaic.StableHlo Idealize.ShloMosaic.ValueIdx Cert.NodeMlp
open Idealize.ShloMosaic.Pipeline (Dat)

variable (m : (ℓ : Loc nD τ sig) → Buf (Elt Ideal) ℓ) (ρ : Dev nD → PrngReg)

/-! ## What a point writes back, the cover, the array -/

/-- Point t of the run writes back block t of the whole-array function of the arrays as the region finds them. -/
theorem flushed_eq (c : Dev nD) (t : Fin cfg0.N) :
    (dats m 0 c).flushed 11 t
      = ((cfg0.win 11).blk t).view.read (Elt Ideal) (Gparts (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10))) := by
  rw [Value.flushed11, out_eq]
  exact flushed_core c t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10))

/-- An index of the array is in point t's block iff each coordinate is in the block's range on its axis. -/
theorem mem_blk (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v8).slice (win0_11.rect t)).set ↔ _
  rw [View.set_slice_whole, Rect.mem_set_unit]
  exact Iff.rfl

/-- Row r is in the block of point r / 2000. -/
theorem cover (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  refine ⟨⟨(i 0).val / 2000, by show (i 0).val / 2000 < 50; omega⟩, flush0_11 _, ?_⟩
  rw [mem_blk]
  obtain ⟨e0, e1⟩ := idx11 ⟨(i 0).val / 2000, by show (i 0).val / 2000 < 50; omega⟩
  intro a
  match a with
  | ⟨0, _⟩ =>
    show win0_11.index _ (0 : Fin 2) * 2000 ≤ (i 0).val ∧ (i 0).val < win0_11.index _ (0 : Fin 2) * 2000 + 2000
    rw [e0]
    show (i 0).val / 2000 * 2000 ≤ (i 0).val ∧ (i 0).val < (i 0).val / 2000 * 2000 + 2000
    omega
  | ⟨1, _⟩ =>
    show win0_11.index _ (1 : Fin 2) * 128 ≤ (i 1).val ∧ (i 1).val < win0_11.index _ (1 : Fin 2) * 128 + 128
    rw [e1]
    omega

/-- The result array after the run, over the arrays as the region finds them. -/
theorem final_V (c : Dev nD) : (dats m 0 c).arrAt 11 cfg0.N = Gparts (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) :=
  (dats m 0 c).arrAt_eq_of_cover 11 _ (fun t _ => flushed_eq m c t) cover

/-! ## What the host operations before the call left -/

/-- The aggregate: the edge features added up at their destination nodes, as one term. -/
abbrev agg (c : Dev nD) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] (m ((c : Thread nD τ).loc main_arg1)) slices_S2x1600000_S1x1600000_1_0)
        shapeCasts_S1x1600000_S1600000))
    (m ((c : Thread nD τ).loc main_arg2))

theorem V_v4 (c : Dev nD) : (V m c main_v4 : S100000x128.Idx → EReal) = agg m c := by
  dsimp only [V, hostOps0]; after_results; rfl
theorem V_v5 (c : Dev nD) : (V m c main_v5 : S128x128.Idx → EReal)
    = extractStridedSlice S128x128 ![0, 0] (m ((c : Thread nD τ).loc main_arg4)) slices_S259x128_S128x128_0_0 := by
  dsimp only [V, hostOps0]; after_results
theorem V_v6 (c : Dev nD) : (V m c main_v6 : S128x128.Idx → EReal)
    = extractStridedSlice S128x128 ![128, 0] (m ((c : Thread nD τ).loc main_arg4)) slices_S259x128_S128x128_128_0 := by
  dsimp only [V, hostOps0]; after_results
theorem V_v7 (c : Dev nD) : (V m c main_v7 : S3x128.Idx → EReal)
    = extractStridedSlice S3x128 ![256, 0] (m ((c : Thread nD τ).loc main_arg4)) slices_S259x128_S3x128_256_0 := by
  dsimp only [V, hostOps0]; after_results

/-- The result array after the run is G of the arguments and the aggregate. -/
theorem final (c : Dev nD) : (dats m 0 c).arrAt 11 cfg0.N
    = G (m ((c : Thread nD τ).loc main_arg0)) (agg m c) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  rw [final_V]
  show Gparts (V m c main_arg0) (V m c main_v4) (V m c main_arg3) (V m c main_v5) (V m c main_v6) (V m c main_v7) (V m c main_arg5)
    (V m c main_arg6) (V m c main_arg7) (V m c main_arg8) (V m c main_arg9) = _
  rw [V_v4, V_v5, V_v6, V_v7, V_main_arg0, V_main_arg3, V_main_arg5, V_main_arg6, V_main_arg7, V_main_arg8, V_main_arg9]
  exact Gparts_of_slices _ _ _ _ _ _ _ _ _ _ _ _

/-! ## The run -/

/-- Every weakly fair execution of the kernel's program ends with the result array at G and the arguments unchanged. -/
theorem run : θ_run defs (onTc (τ := τ) (main (F := Ideal))) ⟨m, fun _ => 0, ρ⟩ fun r => ∀ c : Dev nD,
      r.2.mem ((c : Thread nD τ).loc main_v8)
        = G (m ((c : Thread nD τ).loc main_arg0)) (agg m c) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KernelValue

end
-- ==== Proof.RefValue.lean ====
/-
  The reference's result, read one entry at a time, is the function G of Spec.lean.

  The reference joins x, the aggregated edge features and f into rows of 259 entries and multiplies by the whole of W0.
  Column k of a joined row comes from x for k < 128, from the aggregate for 128 ≤ k < 256 and from f for 256 ≤ k < 259,
  so the product's sum over 259 indices is the three partial sums of G's first layer. Each silu is spelt
  z · (1 / (1 + e^(-z))) with the host's operations, which is the logistic function's definition. The aggregate itself
  (a scatter-add of the edge features) is never opened: it is one term, the same on both sides.
-/
import proofs.«139721_j17910013624369_1_alg».proof.Proof.Gen.ReferenceIdeal.Read
import proofs.«139721_j17910013624369_1_alg».proof.Proof.Spec
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Read Idealize.ShloMosaic Idealize.ShloMosaic.ValueIdx Cert.NodeMlp

variable (x0 : (⟨S100000x128, .f32⟩ : BufTy).Contents (Elt Ideal)) (x1 : (⟨S2x1600000, .i32⟩ : BufTy).Contents (Elt Ideal))
  (x2 : (⟨S1600000x128, .f32⟩ : BufTy).Contents (Elt Ideal)) (x3 : (⟨S100000x3, .f32⟩ : BufTy).Contents (Elt Ideal))
  (x4 : (⟨S259x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## The joined row, column by column -/

/-- Columns 0 … 127 of the joined array are x's. -/
theorem joined_x (p : Fin 100000) (k : Fin 128) (j : S100000x259.Idx) (h0 : (j 0).val = p.val) (h1 : (j 1).val = k.val) :
    val_main_v5 (F := Ideal) x0 x1 x2 x3 j = x0 (ix2 p k) := by
  unfold val_main_v5
  refine concatenate_apply_piece (1 : Fin 2) _ _ j 0 ?_ S100000x128 x0 ?_ rfl 0 ?_ (ix2 p k) ?_ ?_
  · exact (by decide : 0 < 3)
  · rfl
  · rfl
  · intro b hb
    match b with
    | ⟨0, _⟩ => exact h0.symm
    | ⟨1, _⟩ => exact absurd (Fin.ext rfl) hb
  · show 0 + k.val = (j 1).val; omega

/-- Columns 128 … 255 are the aggregate's. -/
theorem joined_agg (p : Fin 100000) (k : Fin 128) (j : S100000x259.Idx) (h0 : (j 0).val = p.val) (h1 : (j 1).val = 128 + k.val) :
    val_main_v5 (F := Ideal) x0 x1 x2 x3 j = val_main_v4 (F := Ideal) x1 x2 (ix2 p k) := by
  unfold val_main_v5
  refine concatenate_apply_piece (1 : Fin 2) _ _ j 1 ?_ S100000x128 (val_main_v4 (F := Ideal) x1 x2) ?_ rfl 128 ?_ (ix2 p k) ?_ ?_
  · exact (by decide : 1 < 3)
  · rfl
  · rfl
  · intro b hb
    match b with
    | ⟨0, _⟩ => exact h0.symm
    | ⟨1, _⟩ => exact absurd (Fin.ext rfl) hb
  · show 128 + k.val = (j 1).val; omega

/-- Columns 256 … 258 are f's. -/
theorem joined_f (p : Fin 100000) (k : Fin 3) (j : S100000x259.Idx) (h0 : (j 0).val = p.val) (h1 : (j 1).val = 256 + k.val) :
    val_main_v5 (F := Ideal) x0 x1 x2 x3 j = x3 (ix2 p k) := by
  unfold val_main_v5
  refine concatenate_apply_piece (1 : Fin 2) _ _ j 2 ?_ S100000x3 x3 ?_ rfl 256 ?_ (ix2 p k) ?_ ?_
  · exact (by decide : 2 < 3)
  · rfl
  · rfl
  · intro b hb
    match b with
    | ⟨0, _⟩ => exact h0.symm
    | ⟨1, _⟩ => exact absurd (Fin.ext rfl) hb
  · show 256 + k.val = (j 1).val; omega

/-! ## The first layer -/

/-- Row p of the three sources and the three row blocks of W0, as G's first layer takes them. -/
abbrev hid (p : Fin 100000) : Fin 128 → EReal :=
  hidden0 (fun k => x0 (ix2 p k)) (fun k => val_main_v4 (F := Ideal) x1 x2 (ix2 p k)) (fun k => x3 (ix2 p k))
    (fun k j => x4 (ix2 (⟨k.val, by have := k.isLt; omega⟩ : Fin 259) j))
    (fun k j => x4 (ix2 (⟨128 + k.val, by have := k.isLt; omega⟩ : Fin 259) j))
    (fun k j => x4 (ix2 (⟨256 + k.val, by have := k.isLt; omega⟩ : Fin 259) j))
    (fun j => x5 (ix1 j))

/-- The joined row times W0, plus the bias, is the sum of the three partial products plus the bias. -/
theorem pre0_eq (p : Fin 100000) (q : Fin 128) :
    val_main_v9 (F := Ideal) x0 x1 x2 x3 x4 x5 (ix2 p q) = hid x0 x1 x2 x3 x4 x5 p q := by
  rw [val_main_v9_apply, val_main_v6_apply, val_main_v8_apply, val_main_v7_apply, sum_split259, Ideal.addf_def]
  unfold hid hidden0
  refine congrArg₂ (· + ·) (congrArg₂ (· + ·) (congrArg₂ (· + ·) ?_ ?_) ?_) ?_
  · refine Finset.sum_congr rfl fun k _ => ?_
    rw [joined_x x0 x1 x2 x3 p k _ rfl rfl]
    exact congrArg (x0 (ix2 p k) * x4 ·) (funext fun a => by
      match a with
      | ⟨0, _⟩ => rfl
      | ⟨1, _⟩ => rfl)
  · refine Finset.sum_congr rfl fun k _ => ?_
    rw [joined_agg x0 x1 x2 x3 p k _ rfl rfl]
    exact congrArg (val_main_v4 (F := Ideal) x1 x2 (ix2 p k) * x4 ·) (funext fun a => by
      match a with
      | ⟨0, _⟩ => rfl
      | ⟨1, _⟩ => rfl)
  · refine Finset.sum_congr rfl fun k _ => ?_
    rw [joined_f x0 x1 x2 x3 p k _ rfl rfl]
    exact congrArg (x3 (ix2 p k) * x4 ·) (funext fun a => by
      match a with
      | ⟨0, _⟩ => rfl
      | ⟨1, _⟩ => rfl)
  · exact congrArg x5 (funext fun a => by
      match a with
      | ⟨0, _⟩ => rfl)

/-- The host's silu of a value is Spec's. -/
theorem host_silu (z : EReal) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z)))) = silu z := by
  simp only [Ideal.mulf_def, Ideal.hostDivf_def, Ideal.addf_def, Ideal.hostUnary_exp_def, Ideal.hostNegf_def, Ideal.negf_def,
    Ideal.ofBits_def, Ideal.ofBits_one_f32]
  rfl

/-- The first layer after its activation. -/
theorem act0_eq (p : Fin 100000) (q : Fin 128) :
    val_main_v10 (F := Ideal) x0 x1 x2 x3 x4 x5 (ix2 p q) = silu (hid x0 x1 x2 x3 x4 x5 p q) := by
  rw [val_main_v10_apply, val_main_call0_v5_apply, val_main_call0_v4_apply, val_main_call0_cst_0_apply, val_main_call0_v3_apply,
    val_main_call0_v2_apply, val_main_call0_cst_apply, val_main_call0_v1_apply, val_main_call0_v0_apply, pre0_eq]
  exact host_silu _

/-! ## The second layer -/

theorem pre1_eq (p : Fin 100000) (q : Fin 128) :
    val_main_v14 (F := Ideal) x0 x1 x2 x3 x4 x5 x6 x7 (ix2 p q)
      = dense (fun k => silu (hid x0 x1 x2 x3 x4 x5 p k)) (fun k j => x6 (ix2 k j)) (fun j => x7 (ix1 j)) q := by
  rw [val_main_v14_apply, val_main_v11_apply, val_main_v13_apply, val_main_v12_apply, Ideal.addf_def]
  unfold dense
  refine congrArg₂ (· + ·) (Finset.sum_congr rfl fun k _ => ?_) ?_
  · have el : lidx_main_v11 (ix2 p q) k = ix2 p k := funext fun a => by
      match a with
      | ⟨0, _⟩ => rfl
      | ⟨1, _⟩ => rfl
    have er : ridx_main_v11 (ix2 p q) k = ix2 k q := funext fun a => by
      match a with
      | ⟨0, _⟩ => rfl
      | ⟨1, _⟩ => rfl
    rw [el, er, act0_eq]
  · exact congrArg x7 (funext fun a => by
      match a with
      | ⟨0, _⟩ => rfl)

theorem act1_eq (p : Fin 100000) (q : Fin 128) :
    val_main_v15 (F := Ideal) x0 x1 x2 x3 x4 x5 x6 x7 (ix2 p q)
      = silu (dense (fun k => silu (hid x0 x1 x2 x3 x4 x5 p k)) (fun k j => x6 (ix2 k j)) (fun j => x7 (ix1 j)) q) := by
  rw [val_main_v15_apply, val_main_call1_v5_apply, val_main_call1_v4_apply, val_main_call1_cst_0_apply, val_main_call1_v3_apply,
    val_main_call1_v2_apply, val_main_call1_cst_apply, val_main_call1_v1_apply, val_main_call1_v0_apply, pre1_eq]
  exact host_silu _

/-! ## The result -/

/-- The reference's last stage is G of the arguments and the aggregate. -/
theorem result_eq :
    val_main_v19 (F := Ideal) x0 x1 x2 x3 x4 x5 x6 x7 x8 x9
      = G x0 (val_main_v4 (F := Ideal) x1 x2) x3 x4 x5 x6 x7 x8 x9 := by
  funext i
  obtain ⟨p, q, rfl⟩ : ∃ (p : Fin 100000) (q : Fin 128), i = ix2 p q := ⟨i 0, i 1, eq_ix2 i⟩
  rw [val_main_v19_apply, val_main_v16_apply, val_main_v18_apply, val_main_v17_apply, Ideal.addf_def]
  unfold G rowOut
  show _ = dense _ _ _ q
  unfold dense
  refine congrArg₂ (· + ·) (Finset.sum_congr rfl fun k _ => ?_) ?_
  · have el : lidx_main_v16 (ix2 p q) k = ix2 p k := funext fun a => by
      match a with
      | ⟨0, _⟩ => rfl
      | ⟨1, _⟩ => rfl
    have er : ridx_main_v16 (ix2 p q) k = ix2 k q := funext fun a => by
      match a with
      | ⟨0, _⟩ => rfl
      | ⟨1, _⟩ => rfl
    rw [el, er, act1_eq]
    rfl
  · exact congrArg x9 (funext fun a => by
      match a with
      | ⟨0, _⟩ => rfl)

end Cert.ReferenceIdeal.RefValue

end
-- ==== Proof.lean ====
/-
  A message-passing node update, certified against its plain reference.

  For 100000 nodes with 128 features x, 1.6 million edges with 128 features, and 3 extra node features f: the edge
  features are added up at their destination nodes (agg), and each node's row [x | agg | f] of 259 entries goes through
  three dense layers, the first two followed by silu, z ↦ z / (1 + e^(-z)):
      out = silu (silu ([x | agg | f] · W0 + b0) · W1 + b1) · W2 + b2.
  The kernel does the aggregation with the same host scatter-add as the reference, then runs the three layers on blocks of
  2000 nodes, multiplying x, agg and f by the row blocks W0[0:128], W0[128:256], W0[256:259] and adding the three products
  instead of joining the row first. On the extended reals the two agree entry by entry: a sum over 259 indices is the sum of
  its three stretches, a product into a zero accumulator is the plain sum, narrowing to bf16 is the identity, and the
  kernel's logistic and the host's 1 / (1 + e^(-z)) are one function. No law used needs a finite entry, so the
  precondition is never opened.
    Spec.lean        the function G and the split of the sum
    RefValue.lean    the reference's result is G
    Payload.lean     the kernel's stored value at an entry of a block
    Parts.lean       G with the three weight blocks as separate arrays
    Blocks.lean      one grid point writes back its block of that function
    KernelValue.lean the kernel's result array is G
-/
import proofs.«139721_j17910013624369_1_alg».proof.Defs
import proofs.«139721_j17910013624369_1_alg».proof.Proof.Gen.Kernel
import proofs.«139721_j17910013624369_1_alg».proof.Proof.Gen.Kernel.Skeleton
import proofs.«139721_j17910013624369_1_alg».proof.Proof.Gen.Kernel.Launch
import proofs.«139721_j17910013624369_1_alg».proof.Proof.Gen.Kernel.Points
import proofs.«139721_j17910013624369_1_alg».proof.Proof.Gen.Kernel.Frame
import proofs.«139721_j17910013624369_1_alg».proof.Proof.Gen.KernelIdeal
import proofs.«139721_j17910013624369_1_alg».proof.Proof.Gen.KernelIdeal.Skeleton
import proofs.«139721_j17910013624369_1_alg».proof.Proof.Gen.KernelIdeal.Launch
import proofs.«139721_j17910013624369_1_alg».proof.Proof.Gen.KernelIdeal.Points
import proofs.«139721_j17910013624369_1_alg».proof.Proof.Gen.KernelIdeal.Frame
import proofs.«139721_j17910013624369_1_alg».proof.Proof.Gen.ReferenceIdeal
import proofs.«139721_j17910013624369_1_alg».proof.Proof.Gen.Pre_finite_inputs
import proofs.«139721_j17910013624369_1_alg».proof.Proof.Gen.KernelIdeal.Value
import proofs.«139721_j17910013624369_1_alg».proof.Proof.Gen.ReferenceIdeal.Run
import proofs.«139721_j17910013624369_1_alg».proof.Proof.Gen.ReferenceIdeal.Read
import proofs.«139721_j17910013624369_1_alg».proof.Proof.KernelValue
import proofs.«139721_j17910013624369_1_alg».proof.Proof.RefValue
import Idealize.ShloMosaic.Adequacy
import Idealize.ShloMosaic.Init

noncomputable section

namespace Cert.Proof

open Idealize.ShloMosaic Idealize.SL.Sem Cert.NodeMlp

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-! ## The two aggregates are one term -/

/-- Both programs add the edge features up with the same scatter-add of the same operands: a zero array, the destination
    row of the edge index as a column, the edge features. -/
theorem agg_eq (m : (ℓ : Loc Cert.KernelIdeal.nD Cert.KernelIdeal.τ Cert.KernelIdeal.sig) → Buf (Elt Ideal) ℓ) (c : Dev Cert.KernelIdeal.nD) :
    Cert.ReferenceIdeal.Read.val_main_v4 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.KernelValue.agg m c := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
  rfl

/-! ## The claims -/

/-- The ideal pass rewrote nothing in this kernel. -/
theorem preserves : Cert.preserves_Kernel_KernelIdeal := trivial

/-- From memories that agree on the arguments both programs end with the result array at G of the arguments and the
    aggregate. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v19_eq, Cert.ReferenceIdeal.RefValue.result_eq, h0, h1, h2, h3, h4, h5, h6, h7, h8, h9,
    agg_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
